-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel

variable [Facts]

def fn {F : FTy → Type} [FloatOps F] (main_arg0 : FVec F S32x512x32x32 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  main_v3
-- ==== Kernel.lean ====
abbrev S32x512x32x32 : Shape := ⟨4, ![32, 512, 32, 32]⟩
abbrev S32x512x1024 : Shape := ⟨3, ![32, 512, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩

abbrev nBuf : Space → Nat
  | .hbm => 4
  | .vmem => 4
  | .smem => 0
  | _ => 0

abbrev bufTy : (tb : Table) → Fin (tcTables nBuf tb) → BufTy
  | .hbm, ⟨0, _⟩ => ⟨S32x512x32x32, .f32⟩
  | .hbm, ⟨1, _⟩ => ⟨S32x512x1024, .f32⟩
  | .hbm, ⟨2, _⟩ => ⟨S32x512x1024, .f32⟩
  | .hbm, ⟨3, _⟩ => ⟨S32x512x32x32, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x512x32x32_S32x512x1024 : S32x512x32x32.ShapeCasts S32x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  transposes_S512x1_p1_0_S1x512 : S512x1.Transposes [1, 0] S1x512
  broadcasts_S1x512_S512x512 : S1x512.Broadcasts S512x512
  broadcasts_S512x1_S512x512 : S512x1.Broadcasts S512x512
  reduces_S512x512_S512 : S512x512.Reduces [0] S512
  shapeCasts_S512_S1x512 : S512.ShapeCasts S1x512
  bitsLt_bf16_f32 : FTy.bits .bf16 < FTy.bits .f32
  transposes_S512x512_p1_0_S512x512 : S512x512.Transposes [1, 0] S512x512
  shapeCasts_S512x1024_S1x512x1024 : S512x1024.ShapeCasts S1x512x1024
  shapeCasts_S32x512x1024_S32x512x32x32 : S32x512x1024.ShapeCasts S32x512x32x32
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .f32 = 32 ∨ (Rect.block (s := S32x512x1024) S1x512x1024.size (cc0_transform_1 i) (hinb0_1 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S32x512x1024 : Shape := ⟨3, ![32, 512, 1024]⟩
abbrev S32x1024x512 : Shape := ⟨3, ![32, 1024, 512]⟩
abbrev S_ : Shape := ⟨0, ![]⟩
abbrev S32x512 : Shape := ⟨2, ![32, 512]⟩
abbrev S32x1x512 : Shape := ⟨3, ![32, 1, 512]⟩
abbrev S32x512x1 : Shape := ⟨3, ![32, 512, 1]⟩
abbrev S32x512x512 : Shape := ⟨3, ![32, 512, 512]⟩

abbrev nBuf : Space → Nat
  | .hbm => 39
  | .vmem => 0
  | .smem => 0
  | _ => 0

abbrev bufTy : (tb : Table) → Fin (tcTables nBuf tb) → BufTy
  | .hbm, ⟨0, _⟩ => ⟨S32x512x32x32, .f32⟩
  | .hbm, ⟨1, _⟩ => ⟨S32x512x1024, .f32⟩
  | .hbm, ⟨2, _⟩ => ⟨S32x1024x512, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x1x512, .f32⟩
  | .hbm, ⟨9, _⟩ => ⟨S32x512x1, .f32⟩
  | .hbm, ⟨10, _⟩ => ⟨S32x512x512, .f32⟩
  | .hbm, ⟨11, _⟩ => ⟨S32x512x512, .f32⟩
  | .hbm, ⟨12, _⟩ => ⟨S32x512x512, .f32⟩
  | .hbm, ⟨13, _⟩ => ⟨S32x512x512, .f32⟩
  | .hbm, ⟨14, _⟩ => ⟨S32x512x512, .f32⟩
  | .hbm, ⟨15, _⟩ => ⟨S_, .f32⟩
  | .hbm, ⟨16, _⟩ => ⟨S32x512, .f32⟩
  | .hbm, ⟨17, _⟩ => ⟨S_, .f32⟩
  | .hbm, ⟨18, _⟩ => ⟨S32x512, .f32⟩
  | .hbm, ⟨19, _⟩ => ⟨S32x512, .f32⟩
  | .hbm, ⟨20, _⟩ => ⟨S32x1x512, .f32⟩
  | .hbm, ⟨21, _⟩ => ⟨S32x512x512, .f32⟩
  | .hbm, ⟨22, _⟩ => ⟨S32x512x512, .f32⟩
  | .hbm, ⟨23, _⟩ => ⟨S32x512x512, .f32⟩
  | .hbm, ⟨24, _⟩ => ⟨S_, .f32⟩
  | .hbm, ⟨25, _⟩ => ⟨S32x512, .f32⟩
  | .hbm, ⟨26, _⟩ => ⟨S32x1x512, .f32⟩
  | .hbm, ⟨27, _⟩ => ⟨S32x512x512, .f32⟩
  | .hbm, ⟨28, _⟩ => ⟨S32x512x512, .f32⟩
  | .hbm, ⟨29, _⟩ => ⟨S32x1024x512, .f32⟩
  | .hbm, ⟨30, _⟩ => ⟨S32x512x1024, .f32⟩
  | .hbm, ⟨31, _⟩ => ⟨S32x512x32x32, .f32⟩
  | .hbm, ⟨32, _⟩ => ⟨S_, .f32⟩
  | .hbm, ⟨33, _⟩ => ⟨S32x512x32x32, .f32⟩
  | .hbm, ⟨34, _⟩ => ⟨S32x512x32x32, .f32⟩
  | .hbm, ⟨35, _⟩ => ⟨S32x512x32x32, .f32⟩
  | .hbm, ⟨36, _⟩ => ⟨S_, .f32⟩
  | .hbm, ⟨37, _⟩ => ⟨S32x512x32x32, .f32⟩
  | .hbm, ⟨38, _⟩ => ⟨S32x512x32x32, .f32⟩
  | _, _ => ⟨S32x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_cst : Ref sig .tc := ⟨.hbm, 36, rfl⟩
abbrev main_call0_v0 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  shapeCasts_S32x512x32x32_S32x512x1024 : S32x512x32x32.ShapeCasts S32x512x1024
  transposes_S32x512x1024_S32x1024x512_0_2_1 : S32x512x1024.Transposes [0, 2, 1] S32x1024x512
  reducesTo_S32x1024x512_S32x512_d1 : S32x1024x512.ReducesTo [1] S32x512
  h_S_ : 0 < S_.numel
  bcast_S_S32x512 : S_.BroadcastsInDim S32x512 (![] : Fin 0 → Fin S32x512.rank)
  bcast_S32x512_S32x1x512_0_2 : S32x512.BroadcastsInDim S32x1x512 (![0, 2] : Fin 2 → Fin S32x1x512.rank)
  bcast_S32x512_S32x512x1_0_1 : S32x512.BroadcastsInDim S32x512x1 (![0, 1] : Fin 2 → Fin S32x512x1.rank)
  bcast_S32x1x512_S32x512x512_0_1_2 : S32x1x512.BroadcastsInDim S32x512x512 (![0, 1, 2] : Fin 3 → Fin S32x512x512.rank)
  bcast_S32x512x1_S32x512x512_0_1_2 : S32x512x1.BroadcastsInDim S32x512x512 (![0, 1, 2] : Fin 3 → Fin S32x512x512.rank)
  reducesTo_S32x512x512_S32x512_d1 : S32x512x512.ReducesTo [1] S32x512
  transposes_S32x1024x512_S32x512x1024_0_2_1 : S32x1024x512.Transposes [0, 2, 1] S32x512x1024
  shapeCasts_S32x512x1024_S32x512x32x32 : S32x512x1024.ShapeCasts S32x512x32x32
  bcast_S_S32x512x32x32 : S_.BroadcastsInDim S32x512x32x32 (![] : Fin 0 → Fin S32x512x32x32.rank)
  dot_S32x1024x512_S32x512x512_S32x1024x512_2_1_1_2_0_0_wf : DotDims.WF S32x1024x512 S32x512x512 S32x1024x512 [2] [1] [1] [2] [0] [0]

variable [Facts₀]

def dot_S32x1024x512_S32x512x512_S32x1024x512_2_1_1_2_0_0 : DotDims S32x1024x512 S32x512x512 S32x1024x512 where
  lhsContracting := [2]
  rhsContracting := [1]
  lhsNonContracting := [1]
  rhsNonContracting := [2]
  lhsBatch := [0]
  rhsBatch := [0]
  wf := dot_S32x1024x512_S32x512x512_S32x1024x512_2_1_1_2_0_0_wf

class Facts : Prop extends Facts₀ where

variable [Facts]
-- ==== Proof.Spec.lean ====
/-
  The mathematics both programs compute, stated once over plain index types.

  One batch element is a slab `X : Fin 512 → Fin 1024 → EReal` (channels × spatial positions).
  * `chanMean X c` is the mean of channel `c` over the 1024 positions: the row sum divided by 1024.
  * `score μ i j = -((μ j - μ i)²)` is the pairwise score of channels `i` and `j`.
  * `colSoft S` is the softmax of `S` down each column `j` (over the first index `i`): the column's
    maximum is subtracted, the exponentials are normalised by their column sum.
  * `blockOut X c s = max (X c s + 0.1 · Σ_k colSoft(score(chanMean X)) k c · X k s) 0`: the weights
    mix the channels, a tenth of the mix is added back to the input, and the result is clipped at zero.
  `G3` applies `blockOut` to every batch element of a [32, 512, 1024] array, and `result` wraps it in the
  two re-layouts between [32, 512, 32, 32] and [32, 512, 1024].
-/
import Idealize.ShloMosaic.PureOps.Ideal
import Idealize.ShloMosaic.PureOps.Ideal.Laws
import Idealize.ShloMosaic.Lib.ValueIdx
import Idealize.ShloMosaic.Lib.Pipeline.Value

noncomputable section

namespace Cert.ChannelMix

open Idealize.ShloMosaic Idealize.ShloMosaic.ValueIdx

/-- One batch element: 512 channels by 1024 positions. -/
abbrev Slab := Fin 512 → Fin 1024 → EReal

/-- The four float words the programs share, read as extended reals: 1024, -∞, 0.1 (as the f32 nearest it) and 0. -/
abbrev nPos : EReal := Ideal.ofBits .f32 0x44800000#32
abbrev negInf : EReal := Ideal.ofBits .f32 0xFF800000#32
abbrev tenth : EReal := Ideal.ofBits .f32 0x3DCCCCCD#32
abbrev zeroW : EReal := Ideal.ofBits .f32 0x00000000#32

/-- The mean of channel `c` over its positions. -/
def chanMean (X : Slab) (c : Fin 512) : EReal := Ideal.div (∑ s : Fin 1024, X c s) nPos

/-- Minus the squared difference of two channel means. -/
def score (μ : Fin 512 → EReal) (i j : Fin 512) : EReal := -((μ j - μ i) * (μ j - μ i))

/-- The largest entry of column `j` (from -∞, and once more against -∞ as both programs do). -/
def colPeak (S : Fin 512 → Fin 512 → EReal) (j : Fin 512) : EReal :=
  max negInf ((Finset.univ : Finset (Fin 512)).fold max negInf fun i => S i j)

/-- The exponential of an entry less its column's largest. -/
def colExp (S : Fin 512 → Fin 512 → EReal) (i j : Fin 512) : EReal := Ideal.exp (S i j - colPeak S j)

/-- The softmax down column `j`. -/
def colSoft (S : Fin 512 → Fin 512 → EReal) (i j : Fin 512) : EReal :=
  Ideal.div (colExp S i j) (∑ k : Fin 512, colExp S k j)

/-- The result for one batch element at channel `c`, position `s`. -/
def blockOut (X : Slab) (c : Fin 512) (s : Fin 1024) : EReal :=
  max (X c s + tenth * ∑ k : Fin 512, colSoft (score (chanMean X)) k c * X k s) zeroW

abbrev S4 : Shape := ⟨4, ![32, 512, 32, 32]⟩
abbrev S3 : Shape := ⟨3, ![32, 512, 1024]⟩

/-- Batch element `b` of a [32, 512, 1024] array. -/
def slab (y : S3.Idx → EReal) (b : Fin 32) : Slab := fun c s => y (ix3 b c s)

/-- `blockOut` on every batch element. -/
def G3 (y : S3.Idx → EReal) : S3.Idx → EReal := fun p => blockOut (slab y (p 0)) (p 1) (p 2)

/-- The whole result: flatten the two spatial axes, apply `G3`, unflatten. -/
def result (h1 : S4.ShapeCasts S3) (h2 : S3.ShapeCasts S4) (x : S4.Idx → EReal) : S4.Idx → EReal :=
  shapeCast S4 (G3 (shapeCast S3 x h1)) h2

/-- `blockOut` depends on the slab and the two coordinates only through their values. -/
theorem blockOut_congr {X X' : Slab} {c c' : Fin 512} {s s' : Fin 1024} (hX : X = X') (hc : c = c') (hs : s = s') :
    blockOut X c s = blockOut X' c' s' := by subst hX hc hs; rfl

end Cert.ChannelMix

end
-- ==== Proof.KernelBlock.lean ====
/-
  The block's arithmetic read at an index.

  For one batch element the block holds a slab `X` of 512 channels by 1024 positions behind a unit axis. Its
  arithmetic is a chain of whole-array operations; here the chain is cut into five named stages and each stage is
  read at explicit coordinates:
  * the slab is the block with the unit axis dropped: `X c s = x0 (0, c, s)`;
  * the column of means at `(c, 0)` is `chanMean X c`, the row sum over the 1024 positions divided by 1024;
  * the score matrix at `(i, j)` is `score μ i j = -((μ j - μ i)²)`: one broadcast of the means along the rows
    (through a transpose), one along the columns, their difference squared and taken from zero;
  * the softmax matrix at `(i, j)` is `colSoft S i j`: the column's largest entry (a fold of `max` from -∞, taken
    once more against -∞) is subtracted, the exponentials are divided by their column sum;
  * the result at `(u, c, s)` is `max (X c s + 0.1 · Σ_k W k c · X k s) 0`: the product of the transposed weights
    with the slab sums over the one contracted axis, a change of format being the identity on extended reals.
  The chain is definitionally the composition of the stages, so at `(u, c, s)` it is `blockOut X c s`.
-/
import proofs.«137310_j20083267076587_1_alg».proof.Proof.Gen.KernelIdeal.Skeleton
import proofs.«137310_j20083267076587_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.ChannelMix Idealize.ShloMosaic Idealize.ShloMosaic.ValueIdx

variable [Cert.KernelIdeal.Facts]

/-! ## The stages of the block's arithmetic, named -/

/-- The block with its unit axis dropped: the slab of channels by positions. -/
def stSlab (x0 : Vec Ideal S1x512x1024 .f32) : FVec Ideal S512x1024 .f32 :=
  shapeCast S512x1024 x0 shapeCasts_S1x512x1024_S512x1024

/-- The column of channel means: each row's sum over the positions, divided by 1024. -/
def stMean (v1 : FVec Ideal S512x1024 .f32) : FVec Ideal S512x1 .f32 :=
  divf (shapeCast S512x1 (multiReduction (F := Ideal) .add [1] S512 v1 0x00000000#32 reduces_S512x1024_S512 (.inl rfl) rfl)
      shapeCasts_S512_S512x1)
    (broadcast S512x1 (Scalar.ofBits (F := Ideal) .f32 0x44800000#32))

/-! ## One operation at a time, read at an index -/

/-- A vector of `a` entries cast to one column reads, at `(c, u)`, entry `c`. -/
theorem shapeCast_a_a1_apply {α : Type} {a : ℕ} (x : (⟨1, ![a]⟩ : Shape).Idx → α)
    (h : (⟨1, ![a]⟩ : Shape).ShapeCasts ⟨2, ![a, 1]⟩) (c : Fin a) (u : Fin 1) :
    shapeCast ⟨2, ![a, 1]⟩ x h (ix2 c u) = x (ix1 c) :=
  shapeCast_apply x h _ _ (by
    have hu : u.val = 0 := by omega
    rw [Shape.rowMajor_val_two, Shape.rowMajor_val_one]
    show c.val = c.val * 1 + u.val
    rw [hu, Nat.mul_one, Nat.add_zero])

/-- The row index `c` with the position `k` put back on axis 1 is `(c, k)`. -/
theorem lift_row (h : S512x1024.Reduces [1] S512) (c : Fin 512) (k : Fin (S512x1024.size 1)) :
    h.lift (ix1 c) k = ix2 c (⟨k.val, k.isLt⟩ : Fin 1024) := by
  funext d; apply Fin.ext
  match d with
  | ⟨0, _⟩ => rfl
  | ⟨1, _⟩ => rfl

/-- A sum over axis 1 of a slab, at row `c`, is the sum of the row's entries. -/
theorem rowSum_apply (v : FVec Ideal S512x1024 .f32) (h : S512x1024.Reduces [1] S512) (hφ : FKind.Formats .f32)
    (hacc : (0x00000000#32 : BitVec 32) = FKind.add.neutral .f32 hφ) (c : Fin 512) :
    multiReduction (F := Ideal) .add [1] S512 v 0x00000000#32 h hφ hacc (ix1 c) = ∑ s : Fin 1024, v (ix2 c s) :=
  (Ideal.multiReduction_add_single v _ h hφ hacc (ix1 c)).trans
    (Finset.sum_congr rfl fun k _ => congrArg v (lift_row h c k))

/-! ## The stages read at an index -/

/-- The slab at `(c, s)` is the block at `(0, c, s)`. -/
theorem stSlab_apply (x0 : Vec Ideal S1x512x1024 .f32) (c : Fin 512) (s : Fin 1024) :
    stSlab x0 (ix2 c s) = x0 (ix3 (0 : Fin 1) c s) :=
  shapeCast_1ab_ab_apply x0 _ c s

/-- The column of means at `(c, u)` is the mean of channel `c`. -/
theorem stMean_apply (v1 : FVec Ideal S512x1024 .f32) (c : Fin 512) (u : Fin 1) :
    stMean v1 (ix2 c u) = chanMean (fun a b => v1 (ix2 a b)) c := by
  unfold stMean chanMean
  rw [divf_apply, shapeCast_a_a1_apply]
  exact congrArg₂ Ideal.div (rowSum_apply v1 _ _ _ c) rfl

/-! ## The pairwise score -/

/-- The matrix of differences of means: at `(i, j)`, mean `j` less mean `i`. -/
def stDiff (v5 : FVec Ideal S512x1 .f32) : FVec Ideal S512x512 .f32 :=
  subf (broadcastTo S512x512 (transpose S1x512 [1, 0] v5 transposes_S512x1_p1_0_S1x512) broadcasts_S1x512_S512x512)
    (broadcastTo S512x512 v5 broadcasts_S512x1_S512x512)

/-- The score matrix: zero less the squared difference. -/
def stScore (v5 : FVec Ideal S512x1 .f32) : FVec Ideal S512x512 .f32 :=
  subf (broadcast S512x512 (Scalar.ofBits (F := Ideal) .f32 0x00000000#32)) (mulf (stDiff v5) (stDiff v5))

/-- One column broadcast over many: an `[a, 1]` array broadcast to `[a, b]` reads, at `(p, c)`, the column's entry `p`. -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ =>
    show (0 : ℕ) = if (1 : ℕ) = 1 then 0 else c.val
    rw [if_pos rfl]

/-- The difference matrix at `(i, j)`. -/
theorem stDiff_apply (v5 : FVec Ideal S512x1 .f32) (i j : Fin 512) :
    stDiff v5 (ix2 i j) = v5 (ix2 j (0 : Fin 1)) - v5 (ix2 i (0 : Fin 1)) := by
  unfold stDiff
  rw [subf_apply, broadcastTo_1b_ab_apply, transpose_ix2_apply, broadcastTo_a1_ab_apply (by decide)]

/-- The score matrix at `(i, j)` is the score of the means. -/
theorem stScore_apply (v5 : FVec Ideal S512x1 .f32) (i j : Fin 512) :
    stScore v5 (ix2 i j) = score (fun c => v5 (ix2 c (0 : Fin 1))) i j := by
  unfold stScore score
  rw [subf_apply, mulf_apply, stDiff_apply]
  show Ideal.ofBits .f32 0x00000000#32 - _ = _
  rw [Ideal.ofBits_zero_f32, zero_sub]

/-! ## The softmax down each column -/

/-- Each column's largest entry, from -∞ and once more against -∞. -/
def stPeak (v12 : FVec Ideal S512x512 .f32) : FVec Ideal S512 .f32 :=
  maximumf (broadcast S512 (Scalar.ofBits (F := Ideal) .f32 0xFF800000#32))
    (multiReduction (F := Ideal) .maximumf [0] S512 v12 0xFF800000#32 reduces_S512x512_S512 (.inl rfl) rfl)

/-- The exponentials of the entries less their column's largest. -/
def stExp (v12 : FVec Ideal S512x512 .f32) : FVec Ideal S512x512 .f32 :=
  exp (subf v12 (broadcastTo S512x512 (shapeCast S1x512 (stPeak v12) shapeCasts_S512_S1x512) broadcasts_S1x512_S512x512))

/-- The exponentials divided by their column's sum. -/
def stSoft (v12 : FVec Ideal S512x512 .f32) : FVec Ideal S512x512 .f32 :=
  divf (stExp v12)
    (broadcastTo S512x512
      (shapeCast S1x512 (multiReduction (F := Ideal) .add [0] S512 (stExp v12) 0x00000000#32 reduces_S512x512_S512 (.inl rfl) rfl)
        shapeCasts_S512_S1x512)
      broadcasts_S1x512_S512x512)

/-- The column index `j` with the row `k` put back on axis 0 is `(k, j)`. -/
theorem lift_col (h : S512x512.Reduces [0] S512) (j : Fin 512) (k : Fin (S512x512.size 0)) :
    h.lift (ix1 j) k = ix2 (⟨k.val, k.isLt⟩ : Fin 512) j := by
  funext d; apply Fin.ext
  match d with
  | ⟨0, _⟩ => rfl
  | ⟨1, _⟩ => rfl

/-- A sum over axis 0 of a square matrix, at column `j`, is the sum of the column's entries. -/
theorem colSum_apply (v : FVec Ideal S512x512 .f32) (h : S512x512.Reduces [0] S512) (hφ : FKind.Formats .f32)
    (hacc : (0x00000000#32 : BitVec 32) = FKind.add.neutral .f32 hφ) (j : Fin 512) :
    multiReduction (F := Ideal) .add [0] S512 v 0x00000000#32 h hφ hacc (ix1 j) = ∑ i : Fin 512, v (ix2 i j) :=
  (Ideal.multiReduction_add_single v _ h hφ hacc (ix1 j)).trans
    (Finset.sum_congr rfl fun k _ => congrArg v (lift_col h j k))

/-- A maximum over axis 0 of a square matrix from -∞, at column `j`, is the fold of `max` over the column's entries. -/
theorem colMax_apply (v : FVec Ideal S512x512 .f32) (h : S512x512.Reduces [0] S512) (hφ : FKind.Formats .f32)
    (hacc : (0xFF800000#32 : BitVec 32) = FKind.maximumf.neutral .f32 hφ) (j : Fin 512) :
    multiReduction (F := Ideal) .maximumf [0] S512 v 0xFF800000#32 h hφ hacc (ix1 j)
      = (Finset.univ : Finset (Fin 512)).fold max negInf fun i => v (ix2 i j) := by
  refine (Ideal.multiReduction_maximumf_single v _ h hφ hacc (ix1 j)).trans ?_
  have hf : (v ∘ h.lift (ix1 j)) = fun i : Fin 512 => v (ix2 i j) := funext fun k => congrArg v (lift_col h j k)
  exact congrArg (fun f => Finset.fold max negInf f (Finset.univ : Finset (Fin 512))) hf

/-- A vector laid as one row and broadcast over the rows reads, at `(i, j)`, entry `j`. -/
theorem rowSpread_apply {α : Type} (y : S512.Idx → α) (h1 : S512.ShapeCasts S1x512) (h2 : S1x512.Broadcasts S512x512)
    (i j : Fin 512) : broadcastTo S512x512 (shapeCast S1x512 y h1) h2 (ix2 i j) = y (ix1 j) :=
  (broadcastTo_1b_ab_apply _ h2 i j).trans (shapeCast_a_1a_apply y h1 (0 : Fin 1) j)

/-- The column peaks at `j`. -/
theorem stPeak_apply (v12 : FVec Ideal S512x512 .f32) (j : Fin 512) :
    stPeak v12 (ix1 j) = colPeak (fun a b => v12 (ix2 a b)) j := by
  unfold stPeak colPeak
  rw [maximumf_apply]
  exact congrArg₂ max rfl (colMax_apply v12 _ _ _ j)

/-- The exponentials at `(i, j)`. -/
theorem stExp_apply (v12 : FVec Ideal S512x512 .f32) (i j : Fin 512) :
    stExp v12 (ix2 i j) = colExp (fun a b => v12 (ix2 a b)) i j := by
  unfold stExp colExp
  show Ideal.exp (subf v12 _ (ix2 i j)) = _
  rw [subf_apply, rowSpread_apply, stPeak_apply]

/-- The softmax at `(i, j)`. -/
theorem stSoft_apply (v12 : FVec Ideal S512x512 .f32) (i j : Fin 512) :
    stSoft v12 (ix2 i j) = colSoft (fun a b => v12 (ix2 a b)) i j := by
  unfold stSoft colSoft
  rw [divf_apply, rowSpread_apply, stExp_apply]
  refine congrArg₂ Ideal.div rfl ?_
  exact (colSum_apply (stExp v12) _ _ _ j).trans (Finset.sum_congr rfl fun k _ => stExp_apply v12 k j)

/-! ## The mix of the channels, the residual and the clip -/

/-- The channels mixed by the weights: the transposed weights times the slab, into zero. -/
def stMix (v23 : FVec Ideal S512x512 .f32) (v1 : FVec Ideal S512x1024 .f32) : FVec Ideal S512x1024 .f32 :=
  matmul dot_S512x512_S512x1024_S512x1024_1_0_0_1_n_n none
    (transpose S512x512 [1, 0] (truncf .bf16 v23 bitsLt_bf16_f32) transposes_S512x512_p1_0_S512x512)
    (truncf .bf16 v1 bitsLt_bf16_f32) (constant (F := Ideal) S512x1024 .f32 0x00000000#32)

/-- A tenth of the mix added to the slab, clipped at zero, with the unit axis put back. -/
def stOut (v23 : FVec Ideal S512x512 .f32) (v1 : FVec Ideal S512x1024 .f32) : FVec Ideal S1x512x1024 .f32 :=
  shapeCast S1x512x1024
    (maximumf (addf v1 (mulf (broadcast S512x1024 (Scalar.ofBits (F := Ideal) .f32 0x3DCCCCCD#32)) (stMix v23 v1)))
      (broadcast S512x1024 (Scalar.ofBits (F := Ideal) .f32 0x00000000#32)))
    shapeCasts_S512x1024_S1x512x1024

/-- The left operand's row is the result's row … -/
theorem mix_lhs_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
/-- … its column the contraction's coordinate; -/
theorem mix_lhs_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
/-- the right operand's row is the contraction's coordinate … -/
theorem mix_rhs_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
/-- … and its column the result's column. -/
theorem mix_rhs_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The mix at `(c, s)`: the sum over the channels `k` of weight `(k, c)` times the slab at `(k, s)`. -/
theorem stMix_apply (v23 : FVec Ideal S512x512 .f32) (v1 : FVec Ideal S512x1024 .f32) (c : Fin 512) (s : Fin 1024) :
    stMix v23 v1 (ix2 c s) = ∑ k : Fin 512, v23 (ix2 k c) * v1 (ix2 k s) := by
  unfold stMix
  simp only [matmul]
  rw [Ideal.matmul_constant_zero_apply,
    ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 c s)
      ((contrEquiv1 dot_S512x512_S512x1024_S512x1024_1_0_0_1_n_n 512 rfl rfl).symm k) = ix2 c k :=
    funext fun a => Fin.ext (by
      match a with
      | ⟨0, _⟩ => exact mix_lhs_0 _ _
      | ⟨1, _⟩ => exact (mix_lhs_1 _ _).trans hk)
  have er : dot_S512x512_S512x1024_S512x1024_1_0_0_1_n_n.rhsIdx (ix2 c s)
      ((contrEquiv1 dot_S512x512_S512x1024_S512x1024_1_0_0_1_n_n 512 rfl rfl).symm k) = ix2 k s :=
    funext fun a => Fin.ext (by
      match a with
      | ⟨0, _⟩ => exact (mix_rhs_0 _ _).trans hk
      | ⟨1, _⟩ => exact mix_rhs_1 _ _)
  rw [el, er, truncf_apply, transpose_ix2_apply, truncf_apply]

/-- The result at `(u, c, s)`. -/
theorem stOut_apply (v23 : FVec Ideal S512x512 .f32) (v1 : FVec Ideal S512x1024 .f32) (u : Fin 1) (c : Fin 512) (s : Fin 1024) :
    stOut v23 v1 (ix3 u c s) = max (v1 (ix2 c s) + tenth * ∑ k : Fin 512, v23 (ix2 k c) * v1 (ix2 k s)) zeroW := by
  unfold stOut
  rw [shapeCast_ab_1ab_apply, maximumf_apply, addf_apply, mulf_apply, stMix_apply]
  rfl

/-! ## The payload is the stages composed, and the composition is the specification -/

/-- The payload, stage by stage. -/
theorem pay_eq_stages (x0 : Vec Ideal S1x512x1024 .f32) :
    k0_pay1 (F := Ideal) x0 = stOut (stSoft (stScore (stMean (stSlab x0)))) (stSlab x0) := rfl

theorem stSlab_fun (x0 : Vec Ideal S1x512x1024 .f32) :
    (fun a b => stSlab x0 (ix2 a b)) = fun c s => x0 (ix3 (0 : Fin 1) c s) :=
  funext fun a => funext fun b => stSlab_apply x0 a b

theorem stMean_fun (v1 : FVec Ideal S512x1024 .f32) :
    (fun c => stMean v1 (ix2 c (0 : Fin 1))) = chanMean (fun a b => v1 (ix2 a b)) :=
  funext fun c => stMean_apply v1 c 0

theorem stScore_fun (v5 : FVec Ideal S512x1 .f32) :
    (fun a b => stScore v5 (ix2 a b)) = score (fun c => v5 (ix2 c (0 : Fin 1))) :=
  funext fun a => funext fun b => stScore_apply v5 a b

/-- The payload at `(u, c, s)` is the block's result for the slab `(c, s) ↦ x0 (0, c, s)` at `(c, s)`. -/
theorem pay_apply (x0 : Vec Ideal S1x512x1024 .f32) (j : S1x512x1024.Idx) :
    k0_pay1 (F := Ideal) x0 j = blockOut (fun c s => x0 (ix3 (0 : Fin 1) c s)) (j 1) (j 2) := by
  obtain ⟨u, c, s, rfl⟩ : ∃ u c s, j = ix3 u c s := ⟨j 0, j 1, j 2, eq_ix3 j⟩
  show k0_pay1 (F := Ideal) x0 (ix3 u c s) = blockOut (fun c s => x0 (ix3 (0 : Fin 1) c s)) c s
  rw [pay_eq_stages, stOut_apply]
  unfold blockOut
  rw [stSlab_apply]
  refine congrArg₂ max (congrArg₂ (· + ·) rfl (congrArg₂ (· * ·) rfl (Finset.sum_congr rfl fun k _ => ?_))) rfl
  rw [stSoft_apply, stScore_fun, stMean_fun, stSlab_fun, stSlab_apply]

end Cert.KernelIdeal.Block

end
-- ==== Proof.KernelArray.lean ====
/-
  The kernel's result array, read off its frame run.

  Grid point `t` stages batch element `t` of the flattened input (a [1, 512, 1024] block of the [32, 512, 1024] array)
  and writes back the body's value on it, which is `blockOut` of that batch element; the 32 blocks tile the output
  array, so the array ends at `G3` of the flattened input. The host lines around the region flatten the two spatial
  axes before it and restore them after it, so the program's result is `result` of the argument.
-/
import proofs.«137310_j20083267076587_1_alg».proof.Proof.Gen.KernelIdeal.Frame
import proofs.«137310_j20083267076587_1_alg».proof.Proof.Spec
import proofs.«137310_j20083267076587_1_alg».proof.Proof.KernelBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.ChannelMix Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- Both windows sit on batch element `t` at point `t` and at offset zero on the other two axes. -/
theorem idx_facts : ∀ t : Fin cfg0.N,
    win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 ∧ win0_1.index t (0 : Fin 3) < 32 :=
  (by decide +kernel : ∀ t : Fin grid0.N, _)

/-- Every batch element is some point's block. -/
theorem idx_onto : ∀ q : Fin 32, ∃ t : Fin cfg0.N, win0_1.index t = ![q.val, 0, 0] :=
  (by decide +kernel : ∀ q : Fin 32, ∃ t : Fin grid0.N, win0_1.index t = ![q.val, 0, 0])

/-- What point `t` writes back is block `t` of `G3` of the flattened input: the body's value at an index of the block is
    `blockOut` of the staged block, and the staged block is batch element `t` of the flattened input. -/
theorem flushed_eq (c : Dev nD) (t : Fin cfg0.N) :
    (dats m 0 c).flushed 1 t = ((cfg0.win 1).blk t).view.read (Elt Ideal) (G3 (V m c main_v0)) := by
  show (cfg0.win 1).cut (grid0.coords t) ((dats m 0 c).after 1 t) = _
  rw [after0_1]
  unfold out0_1
  rw [View.canon_unit_zero hz]
  simp only [View.ld_unit_zero (S := S1x512x1024) hz]
  obtain ⟨e0, e1, e2, e3, e4, e5⟩ := idx_facts t
  funext j
  show k0_pay1 (iblk m c 0 t) j = G3 (V m c main_v0) (((cfg0.win 1).blk t).view.emb j)
  refine (Cert.KernelIdeal.Block.pay_apply (iblk m c 0 t) j).trans ?_
  unfold G3
  refine blockOut_congr ?_ ?_ ?_
  · funext cc s
    show iblk m c 0 t (ix3 0 cc s) = slab (V m c main_v0) _ cc s
    unfold iblk slab
    rw [View.read_apply]
    show V m c main_v0 _ = V m c main_v0 _
    congr 1
    funext a; apply Fin.ext
    have hj : (j 0).val < 1 := (j 0).isLt
    match a with
    | ⟨0, _⟩ => show win0_0.index t (0 : Fin 3) * 1 + 1 * 0 = win0_1.index t (0 : Fin 3) * 1 + 1 * (j 0).val; omega
    | ⟨1, _⟩ => show win0_0.index t (1 : Fin 3) * 512 + 1 * cc.val = cc.val; omega
    | ⟨2, _⟩ => show win0_0.index t (2 : Fin 3) * 1024 + 1 * s.val = s.val; omega
  · apply Fin.ext
    show (j 1).val = win0_1.index t (1 : Fin 3) * 512 + 1 * (j 1).val
    omega
  · apply Fin.ext
    show (j 2).val = win0_1.index t (2 : Fin 3) * 1024 + 1 * (j 2).val
    omega

/-- An index of the output array lies in point `t`'s block iff each coordinate lies in the block's range on its axis. -/
theorem mem_blk (t : Fin cfg0.N) (i : S32x512x1024.Idx) :
    i ∈ ((cfg0.win 1).blk t).view.set ↔ ∀ a : Fin 3, win0_1.index t a * S1x512x1024.size a ≤ (i a).val ∧ (i a).val < win0_1.index t a * S1x512x1024.size a + S1x512x1024.size a := by
  show i ∈ ((View.whole main_v1).slice (win0_1.rect t)).set ↔ _
  rw [View.set_slice_whole, Rect.mem_set_unit]
  exact Iff.rfl

/-- Every index of the output array is in the block of the point that handles its batch element. -/
theorem covered (i : S32x512x1024.Idx) :
    ∃ t : Fin cfg0.N, (cfg0.win 1).flush t = true ∧ i ∈ ((cfg0.win 1).blk t).view.set := by
  obtain ⟨t, ht⟩ := idx_onto (i 0)
  have q0 : win0_1.index t (0 : Fin 3) = (i 0).val := congrFun ht 0
  have q1 : win0_1.index t (1 : Fin 3) = 0 := congrFun ht 1
  have q2 : win0_1.index t (2 : Fin 3) = 0 := congrFun ht 2
  have h1 : (i 1).val < 512 := (i 1).isLt
  have h2 : (i 2).val < 1024 := (i 2).isLt
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 1024 ≤ (i 2).val ∧ (i 2).val < win0_1.index t (2 : Fin 3) * 1024 + 1024; omega

/-- The output array after the run is `G3` of the flattened input. -/
theorem final (c : Dev nD) : (dats m 0 c).arrAt 1 cfg0.N = G3 (V m c main_v0) :=
  (dats m 0 c).arrAt_eq_of_cover 1 (G3 (V m c main_v0)) (fun t _ => flushed_eq m c t) covered

/-- The region finds, in its input window's array, the argument with its two spatial axes flattened. -/
theorem entry (c : Dev nD) :
    (V m c main_v0 : S32x512x1024.Idx → EReal)
      = shapeCast S32x512x1024 (m ((c : Thread nD τ).loc main_arg0)) shapeCasts_S32x512x32x32_S32x512x1024 := by
  show StableHlo.after hostOps0 (fun b => m (c, b)) (Proc.devRef .tc main_v0) = _
  after_results
  rfl

/-- The host line after the region restores the two spatial axes of the output array. -/
theorem tail (c : Dev nD) :
    Pipeline.afterTail₀ cfgs (dats m) 0 (V0 m) [hostOps1] c main_v2
      = result shapeCasts_S32x512x32x32_S32x512x1024 shapeCasts_S32x512x1024_S32x512x32x32 (m ((c : Thread nD τ).loc main_arg0)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v1)
      = (dats m 0 c).arrAt 1 cfg0.N from Pipeline.withArrays_arr spec0 launch0.win.arr_inj c _ _ 1]
  rw [final m c, entry m c]
  rfl

/-- The run, read: the program's result is `result` of the argument, which ends unchanged. -/
theorem run : θ_run defs (onTc (τ := τ) (main (F := Ideal))) ⟨m, fun _ => 0, ρ⟩ fun r => ∀ c : Dev nD,
      r.2.mem ((c : Thread nD τ).loc main_v2)
          = result shapeCasts_S32x512x32x32_S32x512x1024 shapeCasts_S32x512x1024_S32x512x32x32 (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail m c),
       ((h c).2 main_arg0 (Pipeline.mem_restRefs_of main_arg0 (by decide) (by decide))).trans (W_main_arg0 m (dats m) c)⟩)
    (run_main m ρ)

end Cert.KernelIdeal.Array

end
-- ==== Proof.RefMix.lean ====
/-
  The reference's channel mix, read at an index.

  The reference flattens the input to [32, 512, 1024], transposes it to [32, 1024, 512], takes the channel means
  over the 1024 positions, forms the pairwise scores -(mean_j - mean_i)², normalises them by a softmax down each
  column, contracts the transposed input with those weights and transposes the product back.  Each intermediate
  array is identified here, at explicit coordinates, with the corresponding function of Spec.lean; the last lemma
  says that the transposed product at (b, c, s) is the sum over k of the softmax weight (k, c) of batch element b
  times the input at (b, k, s).
-/
import proofs.«137310_j20083267076587_1_alg».proof.Proof.Gen.ReferenceIdeal.Read
import proofs.«137310_j20083267076587_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Mix

open Cert.ReferenceIdeal Cert.ReferenceIdeal.Read Cert.ChannelMix Idealize.ShloMosaic Idealize.ShloMosaic.ValueIdx

variable [Cert.ReferenceIdeal.Facts]

/-- The transposed input at (b, s, c) is the flattened input at (b, c, s). -/
theorem v1_at (x : (⟨S32x512x32x32, .f32⟩ : BufTy).Contents (Elt Ideal)) (b : Fin 32) (s : Fin 1024) (c : Fin 512) :
    val_main_v1 (F := Ideal) x (ix3 b s c) = val_main_v0 (F := Ideal) x (ix3 b c s) := by
  rw [val_main_v1_apply]
  exact congrArg _ (funext fun a => Fin.ext (by match a with | ⟨0, _⟩ => rfl | ⟨1, _⟩ => rfl | ⟨2, _⟩ => rfl))

/-- The mean over positions at (b, c) is the channel mean of batch element b. -/
theorem v4_at (x : (⟨S32x512x32x32, .f32⟩ : BufTy).Contents (Elt Ideal)) (b : Fin 32) (c : Fin 512) :
    val_main_v4 (F := Ideal) x (ix2 b c) = chanMean (slab (val_main_v0 (F := Ideal) x) b) c := by
  rw [val_main_v4_apply, val_main_v2_apply, val_main_v3_apply, val_main_cst_apply, val_main_cst_0_apply]
  show Ideal.div (Ideal.ofBits .f32 0x00000000#32 + _) (Ideal.ofBits .f32 0x44800000#32) = _
  rw [Ideal.ofBits_zero_f32, zero_add]
  unfold chanMean slab
  refine congrArg (fun t => Ideal.div t nPos) (Finset.sum_congr rfl fun k _ => ?_)
  exact (congrArg _ (funext fun a => Fin.ext (by match a with | ⟨0, _⟩ => rfl | ⟨1, _⟩ => rfl | ⟨2, _⟩ => rfl))).trans (v1_at x b k c)

/-- The difference of the two broadcast means at (b, i, j) is mean j less mean i. -/
theorem v9_at (x : (⟨S32x512x32x32, .f32⟩ : BufTy).Contents (Elt Ideal)) (b : Fin 32) (i j : Fin 512) :
    val_main_v9 (F := Ideal) x (ix3 b i j)
      = chanMean (slab (val_main_v0 (F := Ideal) x) b) j - chanMean (slab (val_main_v0 (F := Ideal) x) b) i := by
  rw [val_main_v9_apply, val_main_v7_apply, val_main_v5_apply, val_main_v8_apply, val_main_v6_apply]
  have e1 : idx_main_v5 (idx_main_v7 (ix3 b i j)) = ix2 b j :=
    funext fun a => Fin.ext (by match a with | ⟨0, _⟩ => rfl | ⟨1, _⟩ => rfl)
  have e2 : idx_main_v6 (idx_main_v8 (ix3 b i j)) = ix2 b i :=
    funext fun a => Fin.ext (by match a with | ⟨0, _⟩ => rfl | ⟨1, _⟩ => rfl)
  rw [e1, e2, v4_at, v4_at]
  rfl

/-- The negated square at (b, i, j) is the score of channels i and j. -/
theorem v11_at (x : (⟨S32x512x32x32, .f32⟩ : BufTy).Contents (Elt Ideal)) (b : Fin 32) (i j : Fin 512) :
    val_main_v11 (F := Ideal) x (ix3 b i j) = score (chanMean (slab (val_main_v0 (F := Ideal) x) b)) i j := by
  rw [val_main_v11_apply, val_main_v10_apply, v9_at]
  rfl

/-- The reduced index (b, j) with row k put back on the dropped axis is (b, k, j). -/
theorem lift_at (h : S32x512x512.Reduces [1] S32x512) (b : Fin 32) (j : Fin 512) (k : Fin (S32x512x512.size 1)) :
    h.lift (ix2 b j) k = ix3 b (⟨k.val, k.isLt⟩ : Fin 512) j := by
  funext c; apply Fin.ext
  match c with | ⟨0, _⟩ => rfl | ⟨1, _⟩ => rfl | ⟨2, _⟩ => rfl

/-- The reduce with a maximum body at (b, j) is the fold of max from -∞ down column j of the scores. -/
theorem v12_at (x : (⟨S32x512x32x32, .f32⟩ : BufTy).Contents (Elt Ideal)) (b : Fin 32) (j : Fin 512) :
    val_main_v12 (F := Ideal) x (ix2 b j)
      = (Finset.univ : Finset (Fin 512)).fold max negInf
          fun i => score (chanMean (slab (val_main_v0 (F := Ideal) x) b)) i j := by
  unfold val_main_v12
  have h : S32x512x512.Reduces [1] S32x512 := by decide
  rw [Host.reduce_eq_fold_single FloatOps.maximumf _ _ Facts₀.reducesTo_S32x512x512_S32x512_d1 h Facts₀.h_S_ (ix2 b j)]
  have hf : (val_main_v11 (F := Ideal) x ∘ h.lift (ix2 b j))
      = fun i : Fin 512 => score (chanMean (slab (val_main_v0 (F := Ideal) x) b)) i j :=
    funext fun k => (congrArg (val_main_v11 (F := Ideal) x) (lift_at h b j k)).trans (v11_at x b k j)
  rw [hf]
  rfl

/-- The peak at (b, j) is the column peak of the scores. -/
theorem v14_at (x : (⟨S32x512x32x32, .f32⟩ : BufTy).Contents (Elt Ideal)) (b : Fin 32) (j : Fin 512) :
    val_main_v14 (F := Ideal) x (ix2 b j) = colPeak (score (chanMean (slab (val_main_v0 (F := Ideal) x) b))) j := by
  rw [val_main_v14_apply, val_main_v13_apply, val_main_cst_2_apply, v12_at]
  rfl

/-- The broadcast peak at (b, i, j) is the peak of column j. -/
theorem v16_at (x : (⟨S32x512x32x32, .f32⟩ : BufTy).Contents (Elt Ideal)) (b : Fin 32) (i j : Fin 512) :
    val_main_v16 (F := Ideal) x (ix3 b i j) = colPeak (score (chanMean (slab (val_main_v0 (F := Ideal) x) b))) j := by
  rw [val_main_v16_apply, val_main_v15_apply]
  have e : idx_main_v15 (idx_main_v16 (ix3 b i j)) = ix2 b j :=
    funext fun a => Fin.ext (by match a with | ⟨0, _⟩ => rfl | ⟨1, _⟩ => rfl)
  rw [e, v14_at]

/-- The exponential at (b, i, j) is the exponential of the score less its column's peak. -/
theorem v18_at (x : (⟨S32x512x32x32, .f32⟩ : BufTy).Contents (Elt Ideal)) (b : Fin 32) (i j : Fin 512) :
    val_main_v18 (F := Ideal) x (ix3 b i j) = colExp (score (chanMean (slab (val_main_v0 (F := Ideal) x) b))) i j := by
  rw [val_main_v18_apply, val_main_v17_apply, v11_at, v16_at]
  rfl

/-- The sum of the exponentials at (b, j) is the sum down column j. -/
theorem v19_at (x : (⟨S32x512x32x32, .f32⟩ : BufTy).Contents (Elt Ideal)) (b : Fin 32) (j : Fin 512) :
    val_main_v19 (F := Ideal) x (ix2 b j)
      = ∑ k : Fin 512, colExp (score (chanMean (slab (val_main_v0 (F := Ideal) x) b))) k j := by
  rw [val_main_v19_apply, val_main_cst_3_apply]
  show Ideal.ofBits .f32 0x00000000#32 + _ = _
  rw [Ideal.ofBits_zero_f32, zero_add]
  refine Finset.sum_congr rfl fun k _ => ?_
  exact (congrArg _ (funext fun a => Fin.ext (by match a with | ⟨0, _⟩ => rfl | ⟨1, _⟩ => rfl | ⟨2, _⟩ => rfl))).trans (v18_at x b k j)

/-- The normalised weight at (b, k, c) is the softmax of the scores down column c, at row k. -/
theorem v22_at (x : (⟨S32x512x32x32, .f32⟩ : BufTy).Contents (Elt Ideal)) (b : Fin 32) (k c : Fin 512) :
    val_main_v22 (F := Ideal) x (ix3 b k c) = colSoft (score (chanMean (slab (val_main_v0 (F := Ideal) x) b))) k c := by
  rw [val_main_v22_apply, val_main_v21_apply, val_main_v20_apply, v18_at]
  have e : idx_main_v20 (idx_main_v21 (ix3 b k c)) = ix2 b c :=
    funext fun a => Fin.ext (by match a with | ⟨0, _⟩ => rfl | ⟨1, _⟩ => rfl)
  rw [e, v19_at]
  rfl

/-- The transposed contraction at explicit coordinates (b, c, s). -/
theorem v24_at (x : (⟨S32x512x32x32, .f32⟩ : BufTy).Contents (Elt Ideal)) (b : Fin 32) (c : Fin 512) (s : Fin 1024) :
    val_main_v24 (F := Ideal) x (ix3 b c s)
      = ∑ k : Fin 512, colSoft (score (chanMean (slab (val_main_v0 (F := Ideal) x) b))) k c
          * slab (val_main_v0 (F := Ideal) x) b k s := by
  rw [val_main_v24_apply, val_main_v23_apply]
  refine Finset.sum_congr rfl fun k _ => ?_
  have el : lidx_main_v23 (idx_main_v24 (ix3 b c s)) k = ix3 b s k :=
    funext fun a => Fin.ext (by match a with | ⟨0, _⟩ => rfl | ⟨1, _⟩ => rfl | ⟨2, _⟩ => rfl)
  have er : ridx_main_v23 (idx_main_v24 (ix3 b c s)) k = ix3 b k c :=
    funext fun a => Fin.ext (by match a with | ⟨0, _⟩ => rfl | ⟨1, _⟩ => rfl | ⟨2, _⟩ => rfl)
  rw [el, er, v1_at, v22_at, mul_comm]
  rfl

/-- The transposed contraction at (b, c, s) is the sum over k of the softmax weight (k, c) of batch element b times the
    input at (b, k, s). -/
theorem ref_mix (x : (⟨S32x512x32x32, .f32⟩ : BufTy).Contents (Elt Ideal)) (p : S32x512x1024.Idx) :
    val_main_v24 (F := Ideal) x p
      = ∑ k : Fin 512, colSoft (score (chanMean (slab (val_main_v0 (F := Ideal) x) (p 0)))) k (p 1)
          * slab (val_main_v0 (F := Ideal) x) (p 0) k (p 2) :=
  (congrArg (val_main_v24 (F := Ideal) x) (eq_ix3 p)).trans (v24_at x (p 0) (p 1) (p 2))

end Cert.ReferenceIdeal.Mix

end
-- ==== Proof.RefResult.lean ====
/-
  The reference's result, read off its generated run.

  After the batched matrix product the reference restores the two spatial axes, scales by a tenth, adds the input and
  clips at zero. Restoring the axes only re-indexes, so these pointwise steps can be read before it: the result is
  `result` of the argument.
-/
import proofs.«137310_j20083267076587_1_alg».proof.Proof.Gen.ReferenceIdeal.Read
import proofs.«137310_j20083267076587_1_alg».proof.Proof.Spec
import proofs.«137310_j20083267076587_1_alg».proof.Proof.RefMix
import Idealize.ShloMosaic.Lib.Pipeline.Value
import Idealize.ShloMosaic.Lib.ValueIdx

noncomputable section

open Idealize.ShloMosaic Idealize.ShloMosaic.TcCoe Idealize.SL.Sem

namespace Cert.ReferenceIdeal.Whole

open Cert.ReferenceIdeal Cert.ReferenceIdeal.Gen Cert.ReferenceIdeal.Read Cert.ChannelMix Idealize.ShloMosaic.ValueIdx

/-- The reference's result is `result` of its argument: the pointwise tail (a tenth of the mix, plus the input, clipped at
    zero) commutes with restoring the spatial axes, and the input itself is its flattening restored. -/
theorem ref_result (x : (⟨S32x512x32x32, .f32⟩ : BufTy).Contents (Elt Ideal)) :
    val_main_v29 (F := Ideal) x
      = result shapeCasts_S32x512x32x32_S32x512x1024 shapeCasts_S32x512x1024_S32x512x32x32 x := by
  funext i
  rw [val_main_v29_apply, val_main_v28_apply, val_main_v27_apply, val_main_v26_apply, val_main_cst_4_apply,
    val_main_call0_v0_apply, val_main_call0_cst_apply]
  have hx : x i = shapeCast S32x512x32x32 (val_main_v0 (F := Ideal) x) shapeCasts_S32x512x1024_S32x512x32x32 i :=
    (congrFun (shapeCast_shapeCast x shapeCasts_S32x512x32x32_S32x512x1024 shapeCasts_S32x512x1024_S32x512x32x32) i).symm
  rw [hx]
  unfold val_main_v25 result
  show max (val_main_v0 (F := Ideal) x (Shape.reshapeEquiv shapeCasts_S32x512x1024_S32x512x32x32 i)
        + tenth * val_main_v24 (F := Ideal) x (Shape.reshapeEquiv shapeCasts_S32x512x1024_S32x512x32x32 i)) zeroW
      = G3 (val_main_v0 (F := Ideal) x) (Shape.reshapeEquiv shapeCasts_S32x512x1024_S32x512x32x32 i)
  generalize Shape.reshapeEquiv shapeCasts_S32x512x1024_S32x512x32x32 i = p
  rw [Cert.ReferenceIdeal.Mix.ref_mix]
  unfold G3 blockOut
  have e : val_main_v0 (F := Ideal) x p = slab (val_main_v0 (F := Ideal) x) (p 0) (p 1) (p 2) :=
    congrArg (val_main_v0 (F := Ideal) x) (eq_ix3 p)
  rw [e]

end Cert.ReferenceIdeal.Whole

end
-- ==== Proof.lean ====
/-
  The certificate of the channel-mixing block: `relu (x + 0.1 · mix)`, where for each batch element the 512 channel
  means over the 1024 positions give pairwise scores `-(mean_j - mean_i)²`, a softmax down each column turns the scores
  into weights, and `mix` contracts the channels with those weights.

  The kernel runs one batch element per grid point on the flattened [32, 512, 1024] input; the reference is the batched
  jnp program. At the extended reals both compute one function, `Cert.ChannelMix.result` (Proof/Spec.lean):
  * the kernel's body value at an index is `blockOut` of its block (Proof/KernelBlock.lean), the 32 blocks tile the
    output array, and the host lines around the region flatten and restore the two spatial axes (Proof/KernelArray.lean);
  * the reference's means, scores, column peaks, exponentials, column sums and weights are the same functions of each
    batch element (Proof/RefMix.lean), its product is the kernel's with the factors of each term exchanged, and its
    pointwise tail commutes with restoring the axes (Proof/RefResult.lean).
  No law used needs the inputs finite: sums and products are only re-ordered, `0 - a` is `-a`, `0 + a` is `a`.
  The three frames are the generated ones (the reference's is its generated run with the result dropped), and the
  idealization rewrote nothing, so `preserves` is trivial.
-/
import proofs.«137310_j20083267076587_1_alg».proof.Defs
import proofs.«137310_j20083267076587_1_alg».proof.Proof.Gen.Kernel
import proofs.«137310_j20083267076587_1_alg».proof.Proof.Gen.Kernel.Skeleton
import proofs.«137310_j20083267076587_1_alg».proof.Proof.Gen.Kernel.Launch
import proofs.«137310_j20083267076587_1_alg».proof.Proof.Gen.Kernel.Points
import proofs.«137310_j20083267076587_1_alg».proof.Proof.Gen.Kernel.Frame
import proofs.«137310_j20083267076587_1_alg».proof.Proof.Gen.KernelIdeal
import proofs.«137310_j20083267076587_1_alg».proof.Proof.Gen.KernelIdeal.Skeleton
import proofs.«137310_j20083267076587_1_alg».proof.Proof.Gen.KernelIdeal.Launch
import proofs.«137310_j20083267076587_1_alg».proof.Proof.Gen.KernelIdeal.Points
import proofs.«137310_j20083267076587_1_alg».proof.Proof.Gen.KernelIdeal.Frame
import proofs.«137310_j20083267076587_1_alg».proof.Proof.Gen.ReferenceIdeal
import proofs.«137310_j20083267076587_1_alg».proof.Proof.Gen.Pre_finite_inputs
import proofs.«137310_j20083267076587_1_alg».proof.Proof.Gen.ReferenceIdeal.Run
import proofs.«137310_j20083267076587_1_alg».proof.Proof.Gen.ReferenceIdeal.Read
import proofs.«137310_j20083267076587_1_alg».proof.Proof.KernelArray
import proofs.«137310_j20083267076587_1_alg».proof.Proof.RefResult
import Idealize.ShloMosaic.Adequacy
import Idealize.ShloMosaic.Init

noncomputable section

namespace Cert.Proof

open Idealize.ShloMosaic Idealize.ShloMosaic.TcCoe Idealize.SL.Sem Cert.Kernel

/-- The three frames: the two kernels' are generated whole; the reference's is its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at `result` of the argument: the kernel by its frame run read block by block, the
    reference by its run read operation by operation; the arguments agree. -/
theorem algebraic : Cert.algebraic_KernelIdeal_ReferenceIdeal := by
  intro m ρ m' ρ' _ hagree
  refine ⟨fun c => Cert.ChannelMix.result Cert.KernelIdeal.Gen.shapeCasts_S32x512x32x32_S32x512x1024
      Cert.KernelIdeal.Gen.shapeCasts_S32x512x1024_S32x512x32x32
      (m ((c : Thread Cert.KernelIdeal.nD Cert.KernelIdeal.τ).loc Cert.KernelIdeal.main_arg0)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.Whole.ref_result, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
